-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg1 : IVec S1000000 32) (main_arg2 : IVec S1000000 32) (main_v33 : IVec S_ 1) : IVec S_ 1 :=
  let main_c_12 : IVec S_ 32 := constantI S_ 32 0#32
  let main_v34 : IVec S1000000 32 := broadcastInDim S1000000 ![] bcast_S_S1000000 main_c_12
  let main_v35 : IVec S1000000 1 := cmpi .sge main_arg1 main_v34
  let main_c_13 : IVec S_ 1 := constantI S_ 1 1#1
  let main_v36 : IVec S_ 1 := (fun x v => Host.reduce IntOp.andi x v reducesTo_S1000000_S_d0 h_S_) main_v35 main_c_13
  let main_v37 : IVec S_ 1 := andi main_v33 main_v36
  let main_c_14 : IVec S_ 32 := constantI S_ 32 0#32
  let main_v38 : IVec S1000000 32 := broadcastInDim S1000000 ![] bcast_S_S1000000 main_c_14
  let main_v39 : IVec S1000000 1 := cmpi .sge main_arg2 main_v38
  let main_c_15 : IVec S_ 1 := constantI S_ 1 1#1
  let main_v40 : IVec S_ 1 := (fun x v => Host.reduce IntOp.andi x v reducesTo_S1000000_S_d0 h_S_) main_v39 main_c_15
  let main_v41 : IVec S_ 1 := andi main_v37 main_v40
  main_v41

def fn_part1 {F : FTy → Type} [FloatOps F] (main_arg1 : IVec S1000000 32) (main_arg2 : IVec S1000000 32) (main_arg6 : FVec F S64 .f32) (main_arg7 : FVec F S2x64 .f32) (main_arg8 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_arg2 main_v33

def fn {F : FTy → Type} [FloatOps F] (main_arg0 : FVec F S100000x64 .f32) (main_arg1 : IVec S1000000 32) (main_arg2 : IVec S1000000 32) (main_arg3 : FVec F S128x128 .f32) (main_arg4 : FVec F S128 .f32) (main_arg5 : FVec F S64x128 .f32) (main_arg6 : FVec F S64 .f32) (main_arg7 : FVec F S2x64 .f32) (main_arg8 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg2 main_arg6 main_arg7 main_arg8 main_v13 main_v16
-- ==== Kernel.lean ====
abbrev S100000x64 : Shape := ⟨2, ![100000, 64]⟩
abbrev S1000000 : Shape := ⟨1, ![1000000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1000000x1 : Shape := ⟨2, ![1000000, 1]⟩
abbrev S1000000x64 : Shape := ⟨2, ![1000000, 64]⟩
abbrev S1000000x128 : Shape := ⟨2, ![1000000, 128]⟩
abbrev S_ : Shape := ⟨0, ![]⟩
abbrev S1015808x128 : Shape := ⟨2, ![1015808, 128]⟩
abbrev S128x64 : Shape := ⟨2, ![128, 64]⟩
abbrev S64x2 : Shape := ⟨2, ![64, 2]⟩
abbrev S2x1015808 : Shape := ⟨2, ![2, 1015808]⟩
abbrev S16384x128 : Shape := ⟨2, ![16384, 128]⟩
abbrev S2x16384 : Shape := ⟨2, ![2, 16384]⟩
abbrev S1x128 : Shape := ⟨2, ![1, 128]⟩
abbrev S16384x64 : Shape := ⟨2, ![16384, 64]⟩
abbrev S1x64 : Shape := ⟨2, ![1, 64]⟩
abbrev S16384x2 : Shape := ⟨2, ![16384, 2]⟩
abbrev S1x2 : Shape := ⟨2, ![1, 2]⟩
abbrev S1015808x2 : Shape := ⟨2, ![1015808, 2]⟩
abbrev S1000000x2 : Shape := ⟨2, ![1000000, 2]⟩

abbrev nBuf : Space → Nat
  | .hbm => 27
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S2x64, .f32⟩
  | .hbm, ⟨8, _⟩ => ⟨S2, .f32⟩
  | .hbm, ⟨9, _⟩ => ⟨S100000x64, .bf16⟩
  | .hbm, ⟨10, _⟩ => ⟨S1000000x1, .i32⟩
  | .hbm, ⟨11, _⟩ => ⟨S1000000x64, .bf16⟩
  | .hbm, ⟨12, _⟩ => ⟨S1000000x1, .i32⟩
  | .hbm, ⟨13, _⟩ => ⟨S1000000x64, .bf16⟩
  | .hbm, ⟨14, _⟩ => ⟨S1000000x128, .bf16⟩
  | .hbm, ⟨15, _⟩ => ⟨S_, .i32⟩
  | .hbm, ⟨16, _⟩ => ⟨S_, .bf16⟩
  | .hbm, ⟨17, _⟩ => ⟨S1015808x128, .bf16⟩
  | .hbm, ⟨18, _⟩ => ⟨S128x128, .f32⟩
  | .hbm, ⟨19, _⟩ => ⟨S128x128, .bf16⟩
  | .hbm, ⟨20, _⟩ => ⟨S128x64, .f32⟩
  | .hbm, ⟨21, _⟩ => ⟨S128x64, .bf16⟩
  | .hbm, ⟨22, _⟩ => ⟨S64x2, .f32⟩
  | .hbm, ⟨23, _⟩ => ⟨S64x2, .bf16⟩
  | .hbm, ⟨24, _⟩ => ⟨S2x1015808, .f32⟩
  | .hbm, ⟨25, _⟩ => ⟨S1015808x2, .f32⟩
  | .hbm, ⟨26, _⟩ => ⟨S1000000x2, .f32⟩
  | .local _ .vmem, ⟨0, _⟩ => ⟨S16384x128, .bf16⟩
  | .local _ .vmem, ⟨1, _⟩ => ⟨S16384x128, .bf16⟩
  | .local _ .vmem, ⟨2, _⟩ => ⟨S128x128, .bf16⟩
  | .local _ .vmem, ⟨3, _⟩ => ⟨S128, .f32⟩
  | .local _ .vmem, ⟨4, _⟩ => ⟨S128x64, .bf16⟩
  | .local _ .vmem, ⟨5, _⟩ => ⟨S64, .f32⟩
  | .local _ .vmem, ⟨6, _⟩ => ⟨S64x2, .bf16⟩
  | .local _ .vmem, ⟨7, _⟩ => ⟨S2, .f32⟩
  | .local _ .vmem, ⟨8, _⟩ => ⟨S2x16384, .f32⟩
  | .local _ .vmem, ⟨9, _⟩ => ⟨S2x16384, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_v1 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  pads_S1000000x128_S1015808x128_0158080_000 : S1000000x128.Pads (![0, 0] : Fin 2 → Nat) ![15808, 0] ![0, 0] S1015808x128
  h_S_ : 0 < S_.numel
  transposes_S128x128_S128x128_1_0 : S128x128.Transposes [1, 0] S128x128
  transposes_S64x128_S128x64_1_0 : S64x128.Transposes [1, 0] S128x64
  transposes_S2x64_S64x2_1_0 : S2x64.Transposes [1, 0] S64x2
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S2_S2_0 : ∀ a, (![0] : Fin 1 → Nat) a + S2.size a ≤ S2.size a
  h_S2 : 0 < S2.numel
  shapeCasts_S2_S1x2 : S2.ShapeCasts S1x2
  broadcasts_S1x2_S16384x2 : S1x2.Broadcasts S16384x2
  transposes_S16384x2_p1_0_S2x16384 : S16384x2.Transposes [1, 0] S2x16384
  inb_S2x16384_S2x16384_0_0 : ∀ a, (![0, 0] : Fin 2 → Nat) a + S2x16384.size a ≤ S2x16384.size a
  h_S2x16384 : 0 < S2x16384.numel
  transposes_S2x1015808_S1015808x2_1_0 : S2x1015808.Transposes [1, 0] S1015808x2
  slices_S1015808x2_S1000000x2_0_0 : S1015808x2.Slices ![0, 0] S1000000x2
  gather_S100000x64_S1000000x1_S1000000x64_1_0_n_n_0_1_164_wf : GatherDims.WF S100000x64 S1000000x1 S1000000x64 [1] [0] [] [0] [] 1 ![1, 64]
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x2_S16384x2_1_0_0_1_n_n_wf : DotDims.WF S16384x64 S64x2 S16384x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1015808x128.size a
  hwx0_0 : ∀ i : grid0.Coords, EltTy.bits .bf16 = 32 ∨ (Rect.block (s := S1015808x128) S16384x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2.size a ≤ S64x2.size a
  hwx0_5 : ∀ i : grid0.Coords, EltTy.bits .bf16 = 32 ∨ (Rect.block (s := S64x2) S64x2.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x16384.size a ≤ S2x1015808.size a
  hwx0_7 : ∀ i : grid0.Coords, EltTy.bits .f32 = 32 ∨ (Rect.block (s := S2x1015808) S2x16384.size (cc0_transform_7 i) (hinb0_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x2_S16384x2_1_0_0_1_n_n : DotDims S16384x64 S64x2 S16384x2 where
  lhsContracting := [1]
  rhsContracting := [0]
  lhsNonContracting := [0]
  rhsNonContracting := [1]
  lhsBatch := []
  rhsBatch := []
  wf := dot_S16384x64_S64x2_S16384x2_1_0_0_1_n_n_wf

abbrev win0_0 : Pipeline.Window sig grid0 :=
  Pipeline.Window.ofSpec (Memref.whole main_v4) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S2x16384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩
abbrev S1000000x1 : Shape := ⟨2, ![1000000, 1]⟩
abbrev S1000000x64 : Shape := ⟨2, ![1000000, 64]⟩
abbrev S1000000x128 : Shape := ⟨2, ![1000000, 128]⟩
abbrev S1x128 : Shape := ⟨2, ![1, 128]⟩
abbrev S1x64 : Shape := ⟨2, ![1, 64]⟩
abbrev S1000000x2 : Shape := ⟨2, ![1000000, 2]⟩
abbrev S1x2 : Shape := ⟨2, ![1, 2]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S2x64, .f32⟩
  | .hbm, ⟨8, _⟩ => ⟨S2, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S1000000x128, .f32⟩
  | .hbm, ⟨28, _⟩ => ⟨S1000000x128, .f32⟩
  | .hbm, ⟨29, _⟩ => ⟨S1x128, .f32⟩
  | .hbm, ⟨30, _⟩ => ⟨S1000000x128, .f32⟩
  | .hbm, ⟨31, _⟩ => ⟨S1000000x128, .f32⟩
  | .hbm, ⟨32, _⟩ => ⟨S_, .f32⟩
  | .hbm, ⟨33, _⟩ => ⟨S1000000x128, .f32⟩
  | .hbm, ⟨34, _⟩ => ⟨S1000000x128, .f32⟩
  | .hbm, ⟨35, _⟩ => ⟨S1000000x64, .f32⟩
  | .hbm, ⟨36, _⟩ => ⟨S1x64, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S1000000x64, .f32⟩
  | .hbm, ⟨41, _⟩ => ⟨S1000000x64, .f32⟩
  | .hbm, ⟨42, _⟩ => ⟨S1000000x2, .f32⟩
  | .hbm, ⟨43, _⟩ => ⟨S1x2, .f32⟩
  | .hbm, ⟨44, _⟩ => ⟨S1000000x2, .f32⟩
  | .hbm, ⟨45, _⟩ => ⟨S1000000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  gather_S100000x64_S1000000x1_S1000000x64_1_0_n_n_0_1_164_wf : GatherDims.WF S100000x64 S1000000x1 S1000000x64 [1] [0] [] [0] [] 1 ![1, 64]
  dot_S1000000x128_S128x128_S1000000x128_1_1_0_0_n_n_wf : DotDims.WF S1000000x128 S128x128 S1000000x128 [1] [1] [0] [0] [] []
  dot_S1000000x128_S64x128_S1000000x64_1_1_0_0_n_n_wf : DotDims.WF S1000000x128 S64x128 S1000000x64 [1] [1] [0] [0] [] []
  dot_S1000000x64_S2x64_S1000000x2_1_1_0_0_n_n_wf : DotDims.WF S1000000x64 S2x64 S1000000x2 [1] [1] [0] [0] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x128_S1000000x128_1_1_0_0_n_n : DotDims S1000000x128 S128x128 S1000000x128 where
  lhsContracting := [1]
  rhsContracting := [1]
  lhsNonContracting := [0]
  rhsNonContracting := [0]
  lhsBatch := []
  rhsBatch := []
  wf := dot_S1000000x128_S128x128_S1000000x128_1_1_0_0_n_n_wf
def dot_S1000000x128_S64x128_S1000000x64_1_1_0_0_n_n : DotDims S1000000x128 S64x128 S1000000x64 where
  lhsContracting := [1]
  rhsContracting := [1]
  lhsNonContracting := [0]
  rhsNonContracting := [0]
  lhsBatch := []
  rhsBatch := []
  wf := dot_S1000000x128_S64x128_S1000000x64_1_1_0_0_n_n_wf
def dot_S1000000x64_S2x64_S1000000x2_1_1_0_0_n_n : DotDims S1000000x64 S2x64 S1000000x2 where
  lhsContracting := [1]
  rhsContracting := [1]
  lhsNonContracting := [0]
  rhsNonContracting := [0]
  lhsBatch := []
  rhsBatch := []
  wf := dot_S1000000x64_S2x64_S1000000x2_1_1_0_0_n_n_wf

class Facts : Prop extends Facts₀ where

variable [Facts]
-- ==== Proof.EdgeMlp.lean ====
/-
  The per-edge network both programs compute, as a function of ONE row of features over the extended reals.
  A dense layer sends a row `x` of `K` features to the `J` numbers `(∑ k, x k * w j k) + b j`, the weight
  matrix stored one ROW per OUTPUT feature (`w j k`: output `j`, input `k`). The network is three such
  layers, 128 → 128 → 64 → 2, the first two followed by `max · 0`.
  Nothing here needs the features to be finite: sums and products of extended reals are taken term by term
  in the same order on both sides, so no law beyond the definitions is used.
-/
import Idealize.ShloMosaic.PureOps.Ideal
import Idealize.ShloMosaic.Lib.ValueIdx

open scoped BigOperators

noncomputable section

namespace Cert.EdgeMlp

/-- One dense layer on a row: output feature `j` is the sum over the input features of feature times weight,
    plus the bias of `j`. -/
def dense {K J : Nat} (x : Fin K → EReal) (w : Fin J → Fin K → EReal) (b : Fin J → EReal) (j : Fin J) : EReal :=
  (∑ k : Fin K, x k * w j k) + b j

/-- The rectified layer: a dense layer followed by `max · 0`. -/
def reluDense {K J : Nat} (x : Fin K → EReal) (w : Fin J → Fin K → EReal) (b : Fin J → EReal) (j : Fin J) : EReal :=
  max (dense x w b j) 0

/-- The three-layer network on a row of 128 features: two rectified layers and a last dense one. -/
def mlp (x : Fin 128 → EReal) (win : Fin 128 → Fin 128 → EReal) (bin : Fin 128 → EReal)
    (w1 : Fin 64 → Fin 128 → EReal) (b1 : Fin 64 → EReal) (w2 : Fin 2 → Fin 64 → EReal) (b2 : Fin 2 → EReal)
    (o : Fin 2) : EReal :=
  dense (reluDense (reluDense x win bin) w1 b1) w2 b2 o

/-- Two rows that agree feature by feature give the same network output. -/
theorem mlp_congr {x y : Fin 128 → EReal} (h : ∀ k, x k = y k) (win : Fin 128 → Fin 128 → EReal) (bin : Fin 128 → EReal)
    (w1 : Fin 64 → Fin 128 → EReal) (b1 : Fin 64 → EReal) (w2 : Fin 2 → Fin 64 → EReal) (b2 : Fin 2 → EReal) (o : Fin 2) :
    mlp x win bin w1 b1 w2 b2 o = mlp y win bin w1 b1 w2 b2 o := by
  rw [show x = y from funext h]

end Cert.EdgeMlp

end
-- ==== Proof.BodyValue.lean ====
/-
  What the kernel body stores, read at one entry.
  The body loads a block of 16384 edge rows of 128 features, the three weight matrices stored [in, out], and the
  three biases; it multiplies the rows by the first matrix (a block product into a zero accumulator), adds the
  bias along the rows, takes `max · 0`, and does the same with the second matrix; the third product and bias
  give a [16384, 2] block of scores, stored TRANSPOSED as [2, 16384].
  At the ideal values a change of float format is the identity and a block product into zero is the plain sum
  over the contracted coordinate, so entry (o, r) of what is stored is the three-layer network of row r of the
  loaded block at output o, with each weight matrix read transposed (entry (k, j) of an [in, out] matrix is the
  weight of input k for output j).
-/
import proofs.«430106_j35390530519867_3_alg».proof.Proof.Gen.KernelIdeal.Skeleton
import proofs.«430106_j35390530519867_3_alg».proof.Proof.EdgeMlp
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.BodyValue

open Idealize.ShloMosaic Idealize.ShloMosaic.ValueIdx Cert.KernelIdeal Cert.KernelIdeal.Gen Cert.EdgeMlp

/-! ## The operand coordinates of the three block products

Each product contracts axis 1 of its left operand with axis 0 of its right operand: at output (r, j) and
contraction coordinate k the left operand is read at (r, k) and the right at (k, j). -/

theorem lhsA_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhsA_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhsA_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhsA_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

theorem lhsB_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhsB_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhsB_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhsB_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl

theorem lhsC_0 (i : S16384x2.Idx) (q : dot_S16384x64_S64x2_S16384x2_1_0_0_1_n_n.contr.Idx) :
    (dot_S16384x64_S64x2_S16384x2_1_0_0_1_n_n.lhsIdx i q 0).val = (i 0).val := by
  unfold DotDims.lhsIdx
  rw [dif_neg (show ¬(0 : Fin S16384x64.rank) ∈ dot_S16384x64_S64x2_S16384x2_1_0_0_1_n_n.lhsBatch by decide), dif_pos (show (0 : Fin S16384x64.rank) ∈ dot_S16384x64_S64x2_S16384x2_1_0_0_1_n_n.lhsNonContracting by decide)]
  rfl
theorem lhsC_1 (i : S16384x2.Idx) (q : dot_S16384x64_S64x2_S16384x2_1_0_0_1_n_n.contr.Idx) :
    (dot_S16384x64_S64x2_S16384x2_1_0_0_1_n_n.lhsIdx i q 1).val = (q ⟨0, by decide⟩).val :=
  dot_S16384x64_S64x2_S16384x2_1_0_0_1_n_n.lhsIdx_val_of_single rfl i q
theorem rhsC_0 (i : S16384x2.Idx) (q : dot_S16384x64_S64x2_S16384x2_1_0_0_1_n_n.contr.Idx) :
    (dot_S16384x64_S64x2_S16384x2_1_0_0_1_n_n.rhsIdx i q 0).val = (q ⟨0, by decide⟩).val :=
  dot_S16384x64_S64x2_S16384x2_1_0_0_1_n_n.rhsIdx_val_of_single rfl i q
theorem rhsC_1 (i : S16384x2.Idx) (q : dot_S16384x64_S64x2_S16384x2_1_0_0_1_n_n.contr.Idx) :
    (dot_S16384x64_S64x2_S16384x2_1_0_0_1_n_n.rhsIdx i q 1).val = (i 1).val := by
  unfold DotDims.rhsIdx
  rw [dif_neg (show ¬(1 : Fin S64x2.rank) ∈ dot_S16384x64_S64x2_S16384x2_1_0_0_1_n_n.rhsBatch by decide), dif_pos (show (1 : Fin S64x2.rank) ∈ dot_S16384x64_S64x2_S16384x2_1_0_0_1_n_n.rhsNonContracting by decide)]
  rfl

/-! ## Each block product at an entry is a finite sum -/

/-- The first product, [16384, 128] by [128, 128] into zero, at (r, j): the sum over the 128 input features. -/
theorem productA_apply (a : FVec Ideal S16384x128 .bf16) (w : FVec Ideal S128x128 .bf16) (r : Fin 16384) (j : Fin 128) :
    matmul dot_S16384x128_S128x128_S16384x128_1_0_0_1_n_n none a w (constant (F := Ideal) S16384x128 .f32 0x00000000#32) (ix2 r j)
      = ∑ k : Fin 128, a (ix2 r k) * w (ix2 k j) := by
  simp only [matmul]
  rw [Ideal.matmul_constant_zero_apply, ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 r j) ((contrEquiv1 dot_S16384x128_S128x128_S16384x128_1_0_0_1_n_n 128 rfl rfl).symm k) = ix2 r k := funext fun ax => Fin.ext (by
    match ax with
    | ⟨0, _⟩ => exact lhsA_0 _ _
    | ⟨1, _⟩ => exact (lhsA_1 _ _).trans hk)
  have er : dot_S16384x128_S128x128_S16384x128_1_0_0_1_n_n.rhsIdx (ix2 r j) ((contrEquiv1 dot_S16384x128_S128x128_S16384x128_1_0_0_1_n_n 128 rfl rfl).symm k) = ix2 k j := funext fun ax => Fin.ext (by
    match ax with
    | ⟨0, _⟩ => exact (rhsA_0 _ _).trans hk
    | ⟨1, _⟩ => exact rhsA_1 _ _)
  rw [el, er]

/-- The second product, [16384, 128] by [128, 64] into zero, at (r, j). -/
theorem productB_apply (a : FVec Ideal S16384x128 .bf16) (w : FVec Ideal S128x64 .bf16) (r : Fin 16384) (j : Fin 64) :
    matmul dot_S16384x128_S128x64_S16384x64_1_0_0_1_n_n none a w (constant (F := Ideal) S16384x64 .f32 0x00000000#32) (ix2 r j)
      = ∑ k : Fin 128, a (ix2 r k) * w (ix2 k j) := by
  simp only [matmul]
  rw [Ideal.matmul_constant_zero_apply, ← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 r j) ((contrEquiv1 dot_S16384x128_S128x64_S16384x64_1_0_0_1_n_n 128 rfl rfl).symm k) = ix2 r k := funext fun ax => Fin.ext (by
    match ax with
    | ⟨0, _⟩ => exact lhsB_0 _ _
    | ⟨1, _⟩ => exact (lhsB_1 _ _).trans hk)
  have er : dot_S16384x128_S128x64_S16384x64_1_0_0_1_n_n.rhsIdx (ix2 r j) ((contrEquiv1 dot_S16384x128_S128x64_S16384x64_1_0_0_1_n_n 128 rfl rfl).symm k) = ix2 k j := funext fun ax => Fin.ext (by
    match ax with
    | ⟨0, _⟩ => exact (rhsB_0 _ _).trans hk
    | ⟨1, _⟩ => exact rhsB_1 _ _)
  rw [el, er]

/-- The third product, [16384, 64] by [64, 2] into zero, at (r, o). -/
theorem productC_apply (a : FVec Ideal S16384x64 .bf16) (w : FVec Ideal S64x2 .bf16) (r : Fin 16384) (o : Fin 2) :
    matmul dot_S16384x64_S64x2_S16384x2_1_0_0_1_n_n none a w (constant (F := Ideal) S16384x2 .f32 0x00000000#32) (ix2 r o)
      = ∑ k : Fin 64, a (ix2 r k) * w (ix2 k o) := by
  simp only [matmul]
  rw [Ideal.matmul_constant_zero_apply, ← Equiv.sum_comp (contrEquiv1 dot_S16384x64_S64x2_S16384x2_1_0_0_1_n_n 64 rfl rfl).symm]
  refine Finset.sum_congr rfl fun k _ => ?_
  have hk := contrEquiv1_symm_val dot_S16384x64_S64x2_S16384x2_1_0_0_1_n_n 64 rfl rfl k
  have el : dot_S16384x64_S64x2_S16384x2_1_0_0_1_n_n.lhsIdx (ix2 r o) ((contrEquiv1 dot_S16384x64_S64x2_S16384x2_1_0_0_1_n_n 64 rfl rfl).symm k) = ix2 r k := funext fun ax => Fin.ext (by
    match ax with
    | ⟨0, _⟩ => exact lhsC_0 _ _
    | ⟨1, _⟩ => exact (lhsC_1 _ _).trans hk)
  have er : dot_S16384x64_S64x2_S16384x2_1_0_0_1_n_n.rhsIdx (ix2 r o) ((contrEquiv1 dot_S16384x64_S64x2_S16384x2_1_0_0_1_n_n 64 rfl rfl).symm k) = ix2 k o := funext fun ax => Fin.ext (by
    match ax with
    | ⟨0, _⟩ => exact (rhsC_0 _ _).trans hk
    | ⟨1, _⟩ => exact rhsC_1 _ _)
  rw [el, er]

/-! ## The three layers of the body -/

/-- The zero the body rectifies against is the extended real zero. -/
theorem zero_f32 : Scalar.ofBits (F := Ideal) .f32 0x00000000#32 = (0 : EReal) := Ideal.ofBits_zero_f32

/-- The first layer of the body: product with the [128, 128] matrix, bias along the rows, `max · 0`, narrowed. -/
def hidden1 (x : FVec Ideal S16384x128 .bf16) (w : FVec Ideal S128x128 .bf16) (b : FVec Ideal S128 .f32) : FVec Ideal S16384x128 .bf16 :=
  truncf .bf16 (maximumf (addf (matmul dot_S16384x128_S128x128_S16384x128_1_0_0_1_n_n none (shapeCast S16384x128 x shapeCasts_S16384x128_S16384x128) (shapeCast S128x128 w shapeCasts_S128x128_S128x128) (constant S16384x128 .f32 0x00000000#32))
    (broadcastTo S16384x128 (shapeCast S1x128 b shapeCasts_S128_S1x128) broadcasts_S1x128_S16384x128)) (broadcast S16384x128 (Scalar.ofBits .f32 0x00000000#32))) bitsLt_bf16_f32

/-- The second layer: product with the [128, 64] matrix, bias, `max · 0`, narrowed. -/
def hidden2 (h : FVec Ideal S16384x128 .bf16) (w : FVec Ideal S128x64 .bf16) (b : FVec Ideal S64 .f32) : FVec Ideal S16384x64 .bf16 :=
  truncf .bf16 (maximumf (addf (matmul dot_S16384x128_S128x64_S16384x64_1_0_0_1_n_n none h (shapeCast S128x64 w shapeCasts_S128x64_S128x64) (constant S16384x64 .f32 0x00000000#32))
    (broadcastTo S16384x64 (shapeCast S1x64 b shapeCasts_S64_S1x64) broadcasts_S1x64_S16384x64)) (broadcast S16384x64 (Scalar.ofBits .f32 0x00000000#32))) bitsLt_bf16_f32

/-- The last layer: product with the [64, 2] matrix and bias. -/
def scores (h : FVec Ideal S16384x64 .bf16) (w : FVec Ideal S64x2 .bf16) (b : FVec Ideal S2 .f32) : FVec Ideal S16384x2 .f32 :=
  addf (matmul dot_S16384x64_S64x2_S16384x2_1_0_0_1_n_n none h (shapeCast S64x2 w shapeCasts_S64x2_S64x2) (constant S16384x2 .f32 0x00000000#32))
    (broadcastTo S16384x2 (shapeCast S1x2 b shapeCasts_S2_S1x2) broadcasts_S1x2_S16384x2)

/-- The stored payload is the three layers composed, transposed. -/
theorem pay_eq (x0 : FVec Ideal S16384x128 .bf16) (x1 : FVec Ideal S128x128 .bf16) (x2 : FVec Ideal S128 .f32) (x3 : FVec Ideal S128x64 .bf16)
    (x4 : FVec Ideal S64 .f32) (x5 : FVec Ideal S64x2 .bf16) (x6 : FVec Ideal S2 .f32) :
    k0_pay1 (F := Ideal) x0 x1 x2 x3 x4 x5 x6
      = transpose S2x16384 [1, 0] (scores (hidden2 (hidden1 x0 x1 x2) x3 x4) x5 x6) transposes_S16384x2_p1_0_S2x16384 := rfl

theorem hidden1_apply (x : FVec Ideal S16384x128 .bf16) (w : FVec Ideal S128x128 .bf16) (b : FVec Ideal S128 .f32) (r : Fin 16384) (j : Fin 128) :
    hidden1 x w b (ix2 r j) = reluDense (fun k => x (ix2 r k)) (fun j k => w (ix2 k j)) (fun j => b (ix1 j)) j := by
  unfold hidden1
  rw [shapeCast_self, shapeCast_self]
  simp only [truncf_apply, maximumf_apply, addf_apply, broadcast_apply, productA_apply, broadcastTo_1b_ab_apply, shapeCast_a_1a_apply, zero_f32]
  rfl

theorem hidden2_apply (h : FVec Ideal S16384x128 .bf16) (w : FVec Ideal S128x64 .bf16) (b : FVec Ideal S64 .f32) (r : Fin 16384) (j : Fin 64) :
    hidden2 h w b (ix2 r j) = reluDense (fun k => h (ix2 r k)) (fun j k => w (ix2 k j)) (fun j => b (ix1 j)) j := by
  unfold hidden2
  rw [shapeCast_self]
  simp only [truncf_apply, maximumf_apply, addf_apply, broadcast_apply, productB_apply, broadcastTo_1b_ab_apply, shapeCast_a_1a_apply, zero_f32]
  rfl

theorem scores_apply (h : FVec Ideal S16384x64 .bf16) (w : FVec Ideal S64x2 .bf16) (b : FVec Ideal S2 .f32) (r : Fin 16384) (o : Fin 2) :
    scores h w b (ix2 r o) = dense (fun k => h (ix2 r k)) (fun j k => w (ix2 k j)) (fun j => b (ix1 j)) o := by
  unfold scores
  rw [shapeCast_self]
  simp only [addf_apply, productC_apply, broadcastTo_1b_ab_apply, shapeCast_a_1a_apply]
  rfl

/-! ## The payload at an entry -/

/-- Entry (o, r) of what the body stores is the network of row r of the loaded block at output o, each weight matrix
    read transposed. -/
theorem pay_apply (x0 : FVec Ideal S16384x128 .bf16) (x1 : FVec Ideal S128x128 .bf16) (x2 : FVec Ideal S128 .f32) (x3 : FVec Ideal S128x64 .bf16)
    (x4 : FVec Ideal S64 .f32) (x5 : FVec Ideal S64x2 .bf16) (x6 : FVec Ideal S2 .f32) (o : Fin 2) (r : Fin 16384) :
    k0_pay1 (F := Ideal) x0 x1 x2 x3 x4 x5 x6 (ix2 o r)
      = mlp (fun k => x0 (ix2 r k)) (fun j k => x1 (ix2 k j)) (fun j => x2 (ix1 j)) (fun j k => x3 (ix2 k j)) (fun j => x4 (ix1 j))
          (fun j k => x5 (ix2 k j)) (fun j => x6 (ix1 j)) o := by
  rw [pay_eq]
  refine (transpose_ix2_apply _ _ o r).trans ?_
  rw [scores_apply]
  unfold mlp
  simp only [hidden2_apply, hidden1_apply]

end Cert.KernelIdeal.BodyValue

end
-- ==== Proof.KernelValue.lean ====
/-
  The kernel's result array as one function of the arrays the region finds.
  The pallas_call runs on 62 grid points. At point t it reads rows 16384 t … 16384 t + 16383 of the padded edge rows,
  the three [in, out] weight matrices and the three biases whole, and writes columns 16384 t … 16384 t + 16383 of a
  [2, 1015808] array: entry (o, e) of that array is the network of padded row e at output o. The 62 column blocks
  tile the array, so after the run the whole array is that function. The host then transposes it and keeps the
  first 1000000 rows: entry (e, o) of the result is entry (o, e) of the array.
-/
import proofs.«430106_j35390530519867_3_alg».proof.Proof.Gen.KernelIdeal.Frame
import proofs.«430106_j35390530519867_3_alg».proof.Proof.BodyValue
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.KernelIdeal.BodyValue Cert.EdgeMlp
open Idealize.ShloMosaic.Pipeline (Dat)

variable (m : (ℓ : Loc nD τ sig) → Buf (Elt Ideal) ℓ) (ρ : Dev nD → PrngReg)

/-! ## The arrays the region finds and the blocks a point reads, at their literal types -/

abbrev rowsArr (c : Dev nD) : FVec Ideal S1015808x128 .bf16 := V m c main_v4
abbrev winArr (c : Dev nD) : FVec Ideal S128x128 .bf16 := V m c main_v6
abbrev binArr (c : Dev nD) : FVec Ideal S128 .f32 := V m c main_arg4
abbrev w1Arr (c : Dev nD) : FVec Ideal S128x64 .bf16 := V m c main_v8
abbrev b1Arr (c : Dev nD) : FVec Ideal S64 .f32 := V m c main_arg6
abbrev w2Arr (c : Dev nD) : FVec Ideal S64x2 .bf16 := V m c main_v10
abbrev b2Arr (c : Dev nD) : FVec Ideal S2 .f32 := V m c main_arg8

abbrev rowsBlk (c : Dev nD) (t : Fin cfg0.N) : FVec Ideal S16384x128 .bf16 := iblk m c 0 t
abbrev winBlk (c : Dev nD) (t : Fin cfg0.N) : FVec Ideal S128x128 .bf16 := iblk m c 1 t
abbrev binBlk (c : Dev nD) (t : Fin cfg0.N) : FVec Ideal S128 .f32 := iblk m c 2 t
abbrev w1Blk (c : Dev nD) (t : Fin cfg0.N) : FVec Ideal S128x64 .bf16 := iblk m c 3 t
abbrev b1Blk (c : Dev nD) (t : Fin cfg0.N) : FVec Ideal S64 .f32 := iblk m c 4 t
abbrev w2Blk (c : Dev nD) (t : Fin cfg0.N) : FVec Ideal S64x2 .bf16 := iblk m c 5 t
abbrev b2Blk (c : Dev nD) (t : Fin cfg0.N) : FVec Ideal S2 .f32 := iblk m c 6 t

/-- The printed index maps over the grid: the edge rows' block index is (t, 0), the output's (0, t), every other
    window stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = t.val :=
  (by decide +kernel : ∀ t : Fin grid0.N, _)

/-- Row r of the block of edge rows at point t is row 16384 t + r of the array. -/
theorem rowsBlk_apply (c : Dev nD) (t : Fin cfg0.N) (r : Fin 16384) (k : Fin 128) (e : Fin 1015808)
    (he : e.val = t.val * 16384 + r.val) : rowsBlk m c t (ix2 r k) = rowsArr m c (ix2 e k) := by
  show rowsArr m c (((cfg0.win 0).blk t).view.emb (ix2 r k)) = rowsArr m c (ix2 e k)
  refine congrArg (rowsArr m c) (funext fun a => Fin.ext ?_)
  obtain ⟨h0, h1, -⟩ := idx_facts t
  match a with
  | ⟨0, _⟩ => show win0_0.index t (0 : Fin 2) * 16384 + 1 * r.val = e.val; rw [h0, he]; omega
  | ⟨1, _⟩ => show win0_0.index t (1 : Fin 2) * 128 + 1 * k.val = k.val; rw [h1]; omega

/-- The other six windows' blocks are their whole arrays at every point. -/
theorem winBlk_eq (c : Dev nD) (t : Fin cfg0.N) : winBlk m c t = winArr m c := by
  funext y
  show winArr m c (((cfg0.win 1).blk t).view.emb y) = winArr m c y
  refine congrArg (winArr m c) (funext fun a => Fin.ext ?_)
  obtain ⟨-, -, h0, h1, -⟩ := idx_facts t
  match a with
  | ⟨0, _⟩ => show win0_1.index t (0 : Fin 2) * 128 + 1 * (y 0).val = (y 0).val; rw [h0]; omega
  | ⟨1, _⟩ => show win0_1.index t (1 : Fin 2) * 128 + 1 * (y 1).val = (y 1).val; rw [h1]; omega
theorem binBlk_eq (c : Dev nD) (t : Fin cfg0.N) : binBlk m c t = binArr m c := by
  funext y
  show binArr m c (((cfg0.win 2).blk t).view.emb y) = binArr m c y
  refine congrArg (binArr m c) (funext fun a => Fin.ext ?_)
  obtain ⟨-, -, -, -, h0, -⟩ := idx_facts t
  match a with
  | ⟨0, _⟩ => show win0_2.index t (0 : Fin 1) * 128 + 1 * (y 0).val = (y 0).val; rw [h0]; omega
theorem w1Blk_eq (c : Dev nD) (t : Fin cfg0.N) : w1Blk m c t = w1Arr m c := by
  funext y
  show w1Arr m c (((cfg0.win 3).blk t).view.emb y) = w1Arr m c y
  refine congrArg (w1Arr m c) (funext fun a => Fin.ext ?_)
  obtain ⟨-, -, -, -, -, h0, h1, -⟩ := idx_facts t
  match a with
  | ⟨0, _⟩ => show win0_3.index t (0 : Fin 2) * 128 + 1 * (y 0).val = (y 0).val; rw [h0]; omega
  | ⟨1, _⟩ => show win0_3.index t (1 : Fin 2) * 64 + 1 * (y 1).val = (y 1).val; rw [h1]; omega
theorem b1Blk_eq (c : Dev nD) (t : Fin cfg0.N) : b1Blk m c t = b1Arr m c := by
  funext y
  show b1Arr m c (((cfg0.win 4).blk t).view.emb y) = b1Arr m c y
  refine congrArg (b1Arr m c) (funext fun a => Fin.ext ?_)
  obtain ⟨-, -, -, -, -, -, -, h0, -⟩ := idx_facts t
  match a with
  | ⟨0, _⟩ => show win0_4.index t (0 : Fin 1) * 64 + 1 * (y 0).val = (y 0).val; rw [h0]; omega
theorem w2Blk_eq (c : Dev nD) (t : Fin cfg0.N) : w2Blk m c t = w2Arr m c := by
  funext y
  show w2Arr m c (((cfg0.win 5).blk t).view.emb y) = w2Arr m c y
  refine congrArg (w2Arr m c) (funext fun a => Fin.ext ?_)
  obtain ⟨-, -, -, -, -, -, -, -, h0, h1, -⟩ := idx_facts t
  match a with
  | ⟨0, _⟩ => show win0_5.index t (0 : Fin 2) * 64 + 1 * (y 0).val = (y 0).val; rw [h0]; omega
  | ⟨1, _⟩ => show win0_5.index t (1 : Fin 2) * 2 + 1 * (y 1).val = (y 1).val; rw [h1]; omega
theorem b2Blk_eq (c : Dev nD) (t : Fin cfg0.N) : b2Blk m c t = b2Arr m c := by
  funext y
  show b2Arr m c (((cfg0.win 6).blk t).view.emb y) = b2Arr m c y
  refine congrArg (b2Arr m c) (funext fun a => Fin.ext ?_)
  obtain ⟨-, -, -, -, -, -, -, -, -, -, h0, -⟩ := idx_facts t
  match a with
  | ⟨0, _⟩ => show win0_6.index t (0 : Fin 1) * 2 + 1 * (y 0).val = (y 0).val; rw [h0]; omega

/-! ## The whole output array as one function -/

/-- Entry (o, e) of the [2, 1015808] array: the network of row e of the edge rows at output o, the weight matrices
    stored [in, out]. -/
def scoresT (rows : FVec Ideal S1015808x128 .bf16) (win : FVec Ideal S128x128 .bf16) (bin : FVec Ideal S128 .f32)
    (w1 : FVec Ideal S128x64 .bf16) (b1 : FVec Ideal S64 .f32) (w2 : FVec Ideal S64x2 .bf16) (b2 : FVec Ideal S2 .f32) :
    FVec Ideal S2x1015808 .f32 := fun i =>
  mlp (fun k => rows (ix2 (⟨(i 1).val, (i 1).isLt⟩ : Fin 1015808) k)) (fun j k => win (ix2 k j)) (fun j => bin (ix1 j))
    (fun j k => w1 (ix2 k j)) (fun j => b1 (ix1 j)) (fun j k => w2 (ix2 k j)) (fun j => b2 (ix1 j)) (⟨(i 0).val, (i 0).isLt⟩ : Fin 2)

theorem scoresT_apply (rows : FVec Ideal S1015808x128 .bf16) (win : FVec Ideal S128x128 .bf16) (bin : FVec Ideal S128 .f32)
    (w1 : FVec Ideal S128x64 .bf16) (b1 : FVec Ideal S64 .f32) (w2 : FVec Ideal S64x2 .bf16) (b2 : FVec Ideal S2 .f32)
    (o : Fin 2) (e : Fin 1015808) :
    scoresT rows win bin w1 b1 w2 b2 (ix2 o e)
      = mlp (fun k => rows (ix2 e k)) (fun j k => win (ix2 k j)) (fun j => bin (ix1 j))
          (fun j k => w1 (ix2 k j)) (fun j => b1 (ix1 j)) (fun j k => w2 (ix2 k j)) (fun j => b2 (ix1 j)) o := rfl

/-- The array the region's output ends holding, of the arrays the region finds. -/
def resultT (c : Dev nD) : FVec Ideal S2x1015808 .f32 :=
  scoresT (rowsArr m c) (winArr m c) (binArr m c) (w1Arr m c) (b1Arr m c) (w2Arr m c) (b2Arr m c)

theorem hz2 : (![0, 0] : Fin 2 → Nat) = fun _ => 0 := funext fun a => by fin_cases a <;> rfl
theorem hz1 : (![0] : Fin 1 → Nat) = fun _ => 0 := funext fun a => by fin_cases a <;> rfl

/-- Column r of the output's block at point t is column 16384 t + r of the array. -/
theorem out_emb (t : Fin cfg0.N) (o : Fin 2) (r : Fin 16384) (e : Fin 1015808) (he : e.val = t.val * 16384 + r.val) :
    ((cfg0.win 7).blk t).view.emb (ix2 o r) = (ix2 o e : S2x1015808.Idx) := by
  funext a
  apply Fin.ext
  obtain ⟨-, -, -, -, -, -, -, -, -, -, -, h0, h1⟩ := idx_facts t
  match a with
  | ⟨0, _⟩ => show win0_7.index t (0 : Fin 2) * 2 + 1 * o.val = o.val; rw [h0]; omega
  | ⟨1, _⟩ => show win0_7.index t (1 : Fin 2) * 16384 + 1 * r.val = e.val; rw [h1, he]; omega

/-- What point t writes back is block t of `resultT`. -/
theorem flushed_eq (c : Dev nD) (t : Fin cfg0.N) :
    (dats m 0 c).flushed 7 t = ((cfg0.win 7).blk t).view.read (Elt Ideal) (resultT m c) := by
  show (cfg0.win 7).cut (grid0.coords t) ((dats m 0 c).after 7 t) = _
  rw [after0_7]
  unfold out0_7
  rw [View.canon_unit_zero hz2]
  simp only [View.ld_unit_zero (S := S16384x128) hz2, View.ld_unit_zero (S := S128x128) hz2, View.ld_unit_zero (S := S128) hz1,
    View.ld_unit_zero (S := S128x64) hz2, View.ld_unit_zero (S := S64) hz1, View.ld_unit_zero (S := S64x2) hz2, View.ld_unit_zero (S := S2) hz1]
  funext j
  obtain ⟨o, r, rfl⟩ : ∃ (o : Fin 2) (r : Fin 16384), j = ix2 o r := ⟨j 0, j 1, eq_ix2 j⟩
  have ht : t.val < 62 := by have := t.isLt; have hN : cfg0.N = 62 := N_0; omega
  show k0_pay1 (F := Ideal) (rowsBlk m c t) (winBlk m c t) (binBlk m c t) (w1Blk m c t) (b1Blk m c t) (w2Blk m c t) (b2Blk m c t) (ix2 o r)
    = resultT m c (((cfg0.win 7).blk t).view.emb (ix2 o r))
  rw [out_emb t o r ⟨t.val * 16384 + r.val, by have := r.isLt; omega⟩ rfl]
  rw [pay_apply, winBlk_eq, binBlk_eq, w1Blk_eq, b1Blk_eq, w2Blk_eq, b2Blk_eq]
  unfold resultT
  rw [scoresT_apply]
  exact mlp_congr (fun k => rowsBlk_apply m c t r k _ rfl) _ _ _ _ _ _ o

/-- An index of the array is in point t's block iff each coordinate is in the block's range on its axis. -/
theorem mem_blk (t : Fin cfg0.N) (i : S2x1015808.Idx) :
    i ∈ ((cfg0.win 7).blk t).view.set ↔ ∀ a : Fin 2, win0_7.index t a * S2x16384.size a ≤ (i a).val ∧ (i a).val < win0_7.index t a * S2x16384.size a + S2x16384.size a := by
  show i ∈ ((View.whole main_v11).slice (win0_7.rect t)).set ↔ _
  rw [View.set_slice_whole, Rect.mem_set_unit]
  exact Iff.rfl

/-- The 62 column blocks tile the array: column e lies in the block of point e / 16384. -/
theorem cover (i : S2x1015808.Idx) : ∃ t : Fin cfg0.N, (cfg0.win 7).flush t = true ∧ i ∈ ((cfg0.win 7).blk t).view.set := by
  have hi0 : (i 0).val < 2 := (i 0).isLt
  have hi1 : (i 1).val < 1015808 := (i 1).isLt
  have hN : cfg0.N = 62 := N_0
  have hq : (i 1).val / 16384 < cfg0.N := by rw [hN]; omega
  refine ⟨⟨(i 1).val / 16384, hq⟩, flush0_7 _, ?_⟩
  rw [mem_blk]
  obtain ⟨-, -, -, -, -, -, -, -, -, -, -, h0, h1⟩ := idx_facts ⟨(i 1).val / 16384, hq⟩
  intro a
  match a with
  | ⟨0, _⟩ =>
    show win0_7.index ⟨(i 1).val / 16384, hq⟩ (0 : Fin 2) * 2 ≤ (i 0).val ∧ (i 0).val < win0_7.index ⟨(i 1).val / 16384, hq⟩ (0 : Fin 2) * 2 + 2
    rw [h0]; omega
  | ⟨1, _⟩ =>
    show win0_7.index ⟨(i 1).val / 16384, hq⟩ (1 : Fin 2) * 16384 ≤ (i 1).val ∧ (i 1).val < win0_7.index ⟨(i 1).val / 16384, hq⟩ (1 : Fin 2) * 16384 + 16384
    rw [h1]
    show (i 1).val / 16384 * 16384 ≤ (i 1).val ∧ (i 1).val < (i 1).val / 16384 * 16384 + 16384
    omega

/-- The output array after the run is `resultT`. -/
theorem final (c : Dev nD) : (dats m 0 c).arrAt 7 cfg0.N = resultT m c :=
  (dats m 0 c).arrAt_eq_of_cover 7 (resultT m c) (fun t _ => flushed_eq m c t) cover

/-! ## The host operations after the region -/

/-- The result buffer after the run: the output array transposed, its first 1000000 rows. -/
theorem tail_eq (c : Dev nD) :
    Pipeline.afterTail₀ cfgs (dats m) 0 (V0 m) [hostOps1] c main_v13
      = extractStridedSlice S1000000x2 ![0, 0] (transpose S1015808x2 [1, 0] (resultT m c) transposes_S2x1015808_S1015808x2_1_0) slices_S1015808x2_S1000000x2_0_0 := by
  unfold Pipeline.afterTail₀
  show StableHlo.after hostOps1 _ (Proc.devRef .tc main_v13) = _
  after_results
  rw [(Pipeline.withArrays_arr spec0 launch0.win.arr_inj c _ _ 7).trans (final m c)]

end Cert.KernelIdeal.KernelValue

end
-- ==== Proof.Entry.lean ====
/-
  What the region finds when it is entered.
  Before the one pallas_call the host narrows `h` (the identity at the ideal values), gathers the rows that `src` and
  `dst` name, lays each edge's two rows side by side as 128 features, pads the 1000000 edge rows with 15808 rows of
  zeros to 62 blocks of 16384, and transposes and narrows the three weight matrices to [in, out]. The biases are
  passed as they are. This module names each of those arrays as a term of the arguments.
-/
import proofs.«430106_j35390530519867_3_alg».proof.Proof.Gen.KernelIdeal.Frame
import Idealize.ShloMosaic.Lib.StableHlo.Run
import Idealize.ShloMosaic.PureOps.Ideal
import Idealize.ShloMosaic.Lib.ValueIdx
import Idealize.ShloMosaic.Lib.ValueLayout

noncomputable section

namespace Cert.KernelIdeal.Entry

open Idealize.ShloMosaic Idealize.ShloMosaic.TcCoe Idealize.ShloMosaic.ValueIdx Idealize.SL.Sem Idealize.ShloMosaic.StableHlo Cert.KernelIdeal Cert.KernelIdeal.Gen

/-- The feature rows of the edges: the rows of `h` that `src` and `dst` name, side by side. -/
def edgeRows {φ : FTy} (h : FVec Ideal S100000x64 φ) (src dst : IVec S1000000 32) : FVec Ideal S1000000x128 φ :=
  concatenate S1000000x128 1
    [⟨S1000000x64, Host.gather gather_S100000x64_S1000000x1_S1000000x64_1_0_n_n_0_1_164 h (broadcastInDim S1000000x1 ![0] bcast_S1000000_S1000000x1_0 src)⟩,
     ⟨S1000000x64, Host.gather gather_S100000x64_S1000000x1_S1000000x64_1_0_n_n_0_1_164 h (broadcastInDim S1000000x1 ![0] bcast_S1000000_S1000000x1_0 dst)⟩]
    concatenates_S1000000x64_S1000000x64_S1000000x128_d1

/-- The edge rows followed by 15808 rows of the padding value. -/
def paddedRows (h : FVec Ideal S100000x64 .f32) (src dst : IVec S1000000 32) : FVec Ideal S1015808x128 .bf16 :=
  pad S1015808x128 ![0, 0] ![15808, 0] ![0, 0] (edgeRows (truncf .bf16 h bitsLt_bf16_f32 : FVec Ideal S100000x64 .bf16) src dst)
    (sitofp (F := Ideal) .bf16 (constantI S_ 32 0#32)) pads_S1000000x128_S1015808x128_0158080_000 h_S_

/-- The first weight matrix as the kernel takes it: transposed to [in, out] and narrowed. -/
def winT (w : FVec Ideal S128x128 .f32) : FVec Ideal S128x128 .bf16 :=
  truncf .bf16 (transpose S128x128 [1, 0] w transposes_S128x128_S128x128_1_0) bitsLt_bf16_f32
/-- The second weight matrix, transposed to [128, 64] and narrowed. -/
def w1T (w : FVec Ideal S64x128 .f32) : FVec Ideal S128x64 .bf16 :=
  truncf .bf16 (transpose S128x64 [1, 0] w transposes_S64x128_S128x64_1_0) bitsLt_bf16_f32
/-- The third weight matrix, transposed to [64, 2] and narrowed. -/
def w2T (w : FVec Ideal S2x64 .f32) : FVec Ideal S64x2 .bf16 :=
  truncf .bf16 (transpose S64x2 [1, 0] w transposes_S2x64_S64x2_1_0) bitsLt_bf16_f32

/-- Entry (k, j) of a transposed matrix is entry (j, k) of the matrix. -/
theorem winT_apply (w : FVec Ideal S128x128 .f32) (k : Fin 128) (j : Fin 128) : winT w (ix2 k j) = w (ix2 j k) :=
  transpose_ix2_apply w transposes_S128x128_S128x128_1_0 k j
theorem w1T_apply (w : FVec Ideal S64x128 .f32) (k : Fin 128) (j : Fin 64) : w1T w (ix2 k j) = w (ix2 j k) :=
  transpose_ix2_apply w transposes_S64x128_S128x64_1_0 k j
theorem w2T_apply (w : FVec Ideal S2x64 .f32) (k : Fin 64) (j : Fin 2) : w2T w (ix2 k j) = w (ix2 j k) :=
  transpose_ix2_apply w transposes_S2x64_S64x2_1_0 k j

variable (m : (ℓ : Loc nD τ sig) → Buf (Elt Ideal) ℓ)

/-- The pallas_call's first operand is the padded edge rows of the arguments. -/
theorem V_rows (c : Dev nD) :
    V m c main_v4 = paddedRows (m ((c : Thread nD τ).loc main_arg0)) (m ((c : Thread nD τ).loc main_arg1)) (m ((c : Thread nD τ).loc main_arg2)) := by
  dsimp only [V, V0]
  simp only [hostOps0, hostOps0_1, hostOps0_2, hostOps0_3, hostOps0_4, hostOps0_5, List.flatten_cons, List.flatten_nil, List.append_nil, List.cons_append, List.nil_append]
  after_results
  rfl

/-- Its second operand is the first weight matrix transposed. -/
theorem V_win (c : Dev nD) :
    V m c main_v6 = winT (m ((c : Thread nD τ).loc main_arg3)) := by
  dsimp only [V, V0]
  simp only [hostOps0, hostOps0_1, hostOps0_2, hostOps0_3, hostOps0_4, hostOps0_5, List.flatten_cons, List.flatten_nil, List.append_nil, List.cons_append, List.nil_append]
  after_results
  rfl

/-- Its fourth operand is the second weight matrix transposed. -/
theorem V_w1 (c : Dev nD) :
    V m c main_v8 = w1T (m ((c : Thread nD τ).loc main_arg5)) := by
  dsimp only [V, V0]
  simp only [hostOps0, hostOps0_1, hostOps0_2, hostOps0_3, hostOps0_4, hostOps0_5, List.flatten_cons, List.flatten_nil, List.append_nil, List.cons_append, List.nil_append]
  after_results
  rfl

/-- Its sixth operand is the third weight matrix transposed. -/
theorem V_w2 (c : Dev nD) :
    V m c main_v10 = w2T (m ((c : Thread nD τ).loc main_arg7)) := by
  dsimp only [V, V0]
  simp only [hostOps0, hostOps0_1, hostOps0_2, hostOps0_3, hostOps0_4, hostOps0_5, List.flatten_cons, List.flatten_nil, List.append_nil, List.cons_append, List.nil_append]
  after_results
  rfl

end Cert.KernelIdeal.Entry

end
-- ==== Proof.IndexDomain.lean ====
/-
  What the precondition says of the edge indices, and what the reference then does with them.
  The reference reads `h[src]` the jnp way: an index below zero is first moved up by the number of rows. Under the
  stated domain no index is below zero, so the reference gathers at the indices as given, like the kernel.
-/
import proofs.«430106_j35390530519867_3_alg».proof.Pre_finite_inputs
import proofs.«430106_j35390530519867_3_alg».proof.Proof.Gen.Pre_finite_inputs
import proofs.«430106_j35390530519867_3_alg».proof.Proof.Gen.ReferenceIdeal.Read
import Idealize.ShloMosaic.Lib.ReduceAll
import Idealize.ShloMosaic.Lib.Affine
import Idealize.ShloMosaic.Lib.ValueIdx

noncomputable section

namespace Cert.IndexDomain

open Idealize.ShloMosaic Idealize.ShloMosaic.ValueIdx

/-- A word that is at least zero, read signed, is not below zero. -/
theorem slt_zero_of_sge_zero (a : BitVec 32) (h : IntOp.cmpi .sge a 0#32 = 1#1) : IntOp.cmpi .slt a 0#32 = 0#1 := by
  simp only [IntOp.cmpi] at h ⊢
  rw [BitVec.sle_eq_not_slt] at h
  cases hs : a.slt 0#32
  · rfl
  · rw [hs] at h; exact absurd h (by decide)

instance : Subsingleton Cert.Pre_finite_inputs.S_.Idx := ⟨fun a b => funext fun d => d.elim0⟩

/-- The precondition holds only of index arrays with no entry below zero. -/
theorem nonneg_of_pre (a0 : FVec Ideal Cert.Pre_finite_inputs.S100000x64 .f32) (a1 a2 : IVec Cert.Pre_finite_inputs.S1000000 32)
    (a3 : FVec Ideal Cert.Pre_finite_inputs.S128x128 .f32) (a4 : FVec Ideal Cert.Pre_finite_inputs.S128 .f32)
    (a5 : FVec Ideal Cert.Pre_finite_inputs.S64x128 .f32) (a6 : FVec Ideal Cert.Pre_finite_inputs.S64 .f32)
    (a7 : FVec Ideal Cert.Pre_finite_inputs.S2x64 .f32) (a8 : FVec Ideal Cert.Pre_finite_inputs.S2 .f32)
    (h : Cert.Pre_finite_inputs.fn (F := Ideal) a0 a1 a2 a3 a4 a5 a6 a7 a8 = fun _ => 1#1) :
    (∀ i, IntOp.cmpi .sge (a1 i) 0#32 = 1#1) ∧ (∀ i, IntOp.cmpi .sge (a2 i) 0#32 = 1#1) := by
  have h0 := congrFun h ix0
  dsimp only [Cert.Pre_finite_inputs.fn, Cert.Pre_finite_inputs.fn_part1, Cert.Pre_finite_inputs.fn_part2] at h0
  obtain ⟨h12, hd⟩ := IntOp.andi_eq_one.mp h0
  obtain ⟨-, hs⟩ := IntOp.andi_eq_one.mp h12
  exact ⟨fun i => Host.reduce_andi_all _ _ _ _ _ hs i, fun i => Host.reduce_andi_all _ _ _ _ _ hd i⟩

open Cert.ReferenceIdeal Cert.ReferenceIdeal.Read in
/-- With no entry below zero the reference's adjusted `src` is `src`. -/
theorem wrapped_src (x : (⟨S1000000, .i32⟩ : BufTy).Contents (Elt Ideal)) (hx : ∀ i, IntOp.cmpi .sge (x i) 0#32 = 1#1) :
    val_main_v4 (F := Ideal) x = x := by
  funext i
  rw [val_main_v4_apply, val_main_v1_apply, val_main_v0_apply, val_main_c_apply, slt_zero_of_sge_zero _ (hx i)]
  exact select_zero _ _

open Cert.ReferenceIdeal Cert.ReferenceIdeal.Read in
/-- And its adjusted `dst` is `dst`. -/
theorem wrapped_dst (x : (⟨S1000000, .i32⟩ : BufTy).Contents (Elt Ideal)) (hx : ∀ i, IntOp.cmpi .sge (x i) 0#32 = 1#1) :
    val_main_v11 (F := Ideal) x = x := by
  funext i
  rw [val_main_v11_apply, val_main_v8_apply, val_main_v7_apply, val_main_c_1_apply, slt_zero_of_sge_zero _ (hx i)]
  exact select_zero _ _

end Cert.IndexDomain

end
-- ==== Proof.RefNet.lean ====
/-
  The reference's result, read at one entry.
  The reference gathers the two endpoint rows of every edge, lays them side by side as a row of 128 features, and
  applies three dense layers whose weight matrices are stored one row per output feature; the contraction of the
  features with axis 1 of a weight matrix is, at the ideal values, the plain sum over the input features, and
  `relu` is `max · 0`. So entry (e, o) of the result is the three-layer network of row e of the gathered features
  at output o. The gathered features themselves are left unopened here: they are the same term on both sides.
-/
import proofs.«430106_j35390530519867_3_alg».proof.Proof.Gen.ReferenceIdeal.Run
import proofs.«430106_j35390530519867_3_alg».proof.Proof.Gen.ReferenceIdeal.Read
import proofs.«430106_j35390530519867_3_alg».proof.Proof.EdgeMlp
import Idealize.ShloMosaic.Lib.ValueIdx
import Idealize.ShloMosaic.PureOps.Ideal.Laws

open scoped BigOperators

noncomputable section

namespace Cert.ReferenceIdeal.RefNet

open Idealize.ShloMosaic Idealize.ShloMosaic.ValueIdx Cert.ReferenceIdeal Cert.ReferenceIdeal.Gen Cert.ReferenceIdeal.Read Cert.EdgeMlp

/-- The zero `relu` compares with is the extended real zero. -/
theorem zero_f32 : FloatOps.ofBits (F := Ideal) .f32 0x00000000#32 = (0 : EReal) := Ideal.ofBits_zero_f32

/-- The first layer at (e, j): the rectified dense layer of row e of the gathered features. -/
theorem layer1_apply (x0 : (⟨S100000x64, .f32⟩ : BufTy).Contents (Elt Ideal)) (x1 x2 : (⟨S1000000, .i32⟩ : BufTy).Contents (Elt Ideal)) (x3 : (⟨S128x128, .f32⟩ : BufTy).Contents (Elt Ideal)) (x4 : (⟨S128, .f32⟩ : BufTy).Contents (Elt Ideal)) (e : Fin 1000000) (j : Fin 128) :
    val_main_v19 (F := Ideal) x0 x1 x2 x3 x4 (ix2 e j)
      = reluDense (fun k => val_main_v14 (F := Ideal) x0 x1 x2 (ix2 e k)) (fun j k => x3 (ix2 j k)) (fun j => x4 (ix1 j)) j := by
  have e1 : ∀ k : Fin 128, lidx_main_v15 (ix2 e j) k = ix2 e k := fun k => funext fun a => by
    match a with | ⟨0, _⟩ => rfl | ⟨1, _⟩ => rfl
  have e2 : ∀ k : Fin 128, ridx_main_v15 (ix2 e j) k = ix2 j k := fun k => funext fun a => by
    match a with | ⟨0, _⟩ => rfl | ⟨1, _⟩ => rfl
  have e3 : idx_main_v16 (idx_main_v17 (ix2 e j)) = ix1 j := funext fun a => by
    match a with | ⟨0, _⟩ => rfl
  rw [val_main_v19_apply, val_main_v18_apply, val_main_v15_apply, val_main_v17_apply, val_main_v16_apply,
    val_main_call0_v0_apply, val_main_call0_cst_apply, zero_f32]
  simp only [e1, e2, e3]
  rfl

/-- The second layer at (e, j). -/
theorem layer2_apply (x0 : (⟨S100000x64, .f32⟩ : BufTy).Contents (Elt Ideal)) (x1 x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (e : Fin 1000000) (j : Fin 64) :
    val_main_v24 (F := Ideal) x0 x1 x2 x3 x4 x5 x6 (ix2 e j)
      = reluDense (fun k => val_main_v19 (F := Ideal) x0 x1 x2 x3 x4 (ix2 e k)) (fun j k => x5 (ix2 j k)) (fun j => x6 (ix1 j)) j := by
  have e1 : ∀ k : Fin 128, lidx_main_v20 (ix2 e j) k = ix2 e k := fun k => funext fun a => by
    match a with | ⟨0, _⟩ => rfl | ⟨1, _⟩ => rfl
  have e2 : ∀ k : Fin 128, ridx_main_v20 (ix2 e j) k = ix2 j k := fun k => funext fun a => by
    match a with | ⟨0, _⟩ => rfl | ⟨1, _⟩ => rfl
  have e3 : idx_main_v21 (idx_main_v22 (ix2 e j)) = ix1 j := funext fun a => by
    match a with | ⟨0, _⟩ => rfl
  rw [val_main_v24_apply, val_main_v23_apply, val_main_v20_apply, val_main_v22_apply, val_main_v21_apply,
    val_main_call1_v0_apply, val_main_call1_cst_apply, zero_f32]
  simp only [e1, e2, e3]
  rfl

/-- The last layer at (e, o). -/
theorem layer3_apply (x0 : (⟨S100000x64, .f32⟩ : BufTy).Contents (Elt Ideal)) (x1 x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S2x64, .f32⟩ : BufTy).Contents (Elt Ideal)) (x8 : (⟨S2, .f32⟩ : BufTy).Contents (Elt Ideal)) (e : Fin 1000000) (o : Fin 2) :
    val_main_v28 (F := Ideal) x0 x1 x2 x3 x4 x5 x6 x7 x8 (ix2 e o)
      = dense (fun k => val_main_v24 (F := Ideal) x0 x1 x2 x3 x4 x5 x6 (ix2 e k)) (fun j k => x7 (ix2 j k)) (fun j => x8 (ix1 j)) o := by
  have e1 : ∀ k : Fin 64, lidx_main_v25 (ix2 e o) k = ix2 e k := fun k => funext fun a => by
    match a with | ⟨0, _⟩ => rfl | ⟨1, _⟩ => rfl
  have e2 : ∀ k : Fin 64, ridx_main_v25 (ix2 e o) k = ix2 o k := fun k => funext fun a => by
    match a with | ⟨0, _⟩ => rfl | ⟨1, _⟩ => rfl
  have e3 : idx_main_v26 (idx_main_v27 (ix2 e o)) = ix1 o := funext fun a => by
    match a with | ⟨0, _⟩ => rfl
  rw [val_main_v28_apply, val_main_v25_apply, val_main_v27_apply, val_main_v26_apply]
  simp only [e1, e2, e3]
  rfl

/-- Entry (e, o) of the reference's result is the network of row e of the gathered features at output o. -/
theorem result_apply (x0 : (⟨S100000x64, .f32⟩ : BufTy).Contents (Elt Ideal)) (x1 x2 : (⟨S1000000, .i32⟩ : BufTy).Contents (Elt Ideal)) (x3 : (⟨S128x128, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S2x64, .f32⟩ : BufTy).Contents (Elt Ideal)) (x8 : (⟨S2, .f32⟩ : BufTy).Contents (Elt Ideal)) (e : Fin 1000000) (o : Fin 2) :
    val_main_v28 (F := Ideal) x0 x1 x2 x3 x4 x5 x6 x7 x8 (ix2 e o)
      = mlp (fun k => val_main_v14 (F := Ideal) x0 x1 x2 (ix2 e k)) (fun j k => x3 (ix2 j k)) (fun j => x4 (ix1 j))
          (fun j k => x5 (ix2 j k)) (fun j => x6 (ix1 j)) (fun j k => x7 (ix2 j k)) (fun j => x8 (ix1 j)) o := by
  rw [layer3_apply]
  unfold mlp
  simp only [layer2_apply, layer1_apply]

end Cert.ReferenceIdeal.RefNet

end
-- ==== Proof.Result.lean ====
/-
  Both programs' result as ONE function of the arguments.
  Entry (e, o) of the result is the three-layer network, at output o, of the row that lays `h[src e]` beside `h[dst e]`,
  the weights one row per output feature. The kernel reaches it through the padded rows (a padded row below 1000000 is
  the edge row), the transposed weight matrices (entry (k, j) of the transpose is entry (j, k)) and the transposed,
  cut output; the reference through its three layers, once its adjustment of the indices is seen to do nothing on
  indices that are not below zero. Nothing here asks the features to be finite.
-/
import proofs.«430106_j35390530519867_3_alg».proof.Proof.KernelValue
import proofs.«430106_j35390530519867_3_alg».proof.Proof.Entry
import proofs.«430106_j35390530519867_3_alg».proof.Proof.IndexDomain
import proofs.«430106_j35390530519867_3_alg».proof.Proof.RefNet
import Idealize.ShloMosaic.Lib.KernelVsHost

set_option maxRecDepth 16384

noncomputable section

namespace Cert.Result

open Idealize.ShloMosaic Idealize.ShloMosaic.TcCoe Idealize.ShloMosaic.ValueIdx Idealize.SL.Sem
open Cert.KernelIdeal Cert.KernelIdeal.Gen Cert.KernelIdeal.Entry Cert.KernelIdeal.KernelValue Cert.EdgeMlp

/-- The scores of every edge: entry (e, o) is the network of edge e's two feature rows at output o. -/
def result (h : FVec Ideal S100000x64 .f32) (src dst : IVec S1000000 32) (win : FVec Ideal S128x128 .f32) (bin : FVec Ideal S128 .f32)
    (w1 : FVec Ideal S64x128 .f32) (b1 : FVec Ideal S64 .f32) (w2 : FVec Ideal S2x64 .f32) (b2 : FVec Ideal S2 .f32) :
    FVec Ideal S1000000x2 .f32 := fun i =>
  mlp (fun k => edgeRows h src dst (ix2 (⟨(i 0).val, (i 0).isLt⟩ : Fin 1000000) k)) (fun j k => win (ix2 j k)) (fun j => bin (ix1 j))
    (fun j k => w1 (ix2 j k)) (fun j => b1 (ix1 j)) (fun j k => w2 (ix2 j k)) (fun j => b2 (ix1 j)) (⟨(i 1).val, (i 1).isLt⟩ : Fin 2)

theorem result_apply (h : FVec Ideal S100000x64 .f32) (src dst : IVec S1000000 32) (win : FVec Ideal S128x128 .f32) (bin : FVec Ideal S128 .f32)
    (w1 : FVec Ideal S64x128 .f32) (b1 : FVec Ideal S64 .f32) (w2 : FVec Ideal S2x64 .f32) (b2 : FVec Ideal S2 .f32) (e : Fin 1000000) (o : Fin 2) :
    result h src dst win bin w1 b1 w2 b2 (ix2 e o)
      = mlp (fun k => edgeRows h src dst (ix2 e k)) (fun j k => win (ix2 j k)) (fun j => bin (ix1 j))
          (fun j k => w1 (ix2 j k)) (fun j => b1 (ix1 j)) (fun j k => w2 (ix2 j k)) (fun j => b2 (ix1 j)) o := rfl

/-! ## The kernel's side -/

/-- A padded row below 1000000 is the edge row; narrowing `h` first changes nothing at the ideal values. -/
theorem paddedRows_apply (h : FVec Ideal S100000x64 .f32) (src dst : IVec S1000000 32) (e : Fin 1000000) (e' : Fin 1015808)
    (he : e'.val = e.val) (k : Fin 128) : paddedRows h src dst (ix2 e' k) = edgeRows h src dst (ix2 e k) := by
  unfold paddedRows
  refine (pad_apply_of_inside _ _ _ _ _ pads_S1000000x128_S1015808x128_0158080_000 h_S_ (ix2 e' k) (ix2 e k) (fun a => ?_)).trans rfl
  match a with
  | ⟨0, _⟩ => show e'.val = 0 + e.val * (0 + 1); omega
  | ⟨1, _⟩ => show k.val = 0 + k.val * (0 + 1); omega

variable (m : (ℓ : Loc nD τ sig) → Buf (Elt Ideal) ℓ) (ρ : Dev nD → PrngReg)

/-- The kernel's result buffer is `result` of the arguments. -/
theorem kernel_value (c : Dev nD) :
    extractStridedSlice S1000000x2 ![0, 0] (transpose S1015808x2 [1, 0] (resultT m c) transposes_S2x1015808_S1015808x2_1_0) slices_S1015808x2_S1000000x2_0_0
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨e, o, rfl⟩ : ∃ (e : Fin 1000000) (o : Fin 2), i = ix2 e o := ⟨i 0, i 1, eq_ix2 i⟩
  have he : e.val < 1015808 := by have := e.isLt; omega
  rw [slice2_axis0_apply 0 _ _ e o ⟨e.val, he⟩ (Nat.zero_add _).symm, transpose_ix2_apply, result_apply]
  unfold resultT
  rw [scoresT_apply]
  have hrows : ∀ k : Fin 128, rowsArr m c (ix2 (⟨e.val, he⟩ : Fin 1015808) k)
      = edgeRows (m ((c : Thread nD τ).loc main_arg0)) (m ((c : Thread nD τ).loc main_arg1)) (m ((c : Thread nD τ).loc main_arg2)) (ix2 e k) := fun k => by
    show V m c main_v4 (ix2 (⟨e.val, he⟩ : Fin 1015808) k) = _
    rw [V_rows]
    exact paddedRows_apply _ _ _ e ⟨e.val, he⟩ rfl k
  have hwin : ∀ (j : Fin 128) (k : Fin 128), winArr m c (ix2 k j) = (m ((c : Thread nD τ).loc main_arg3)) (ix2 j k) := fun j k => by
    show V m c main_v6 (ix2 k j) = _
    rw [V_win]
    exact winT_apply _ k j
  have hbin : ∀ j : Fin 128, binArr m c (ix1 j) = (m ((c : Thread nD τ).loc main_arg4)) (ix1 j) := fun j => by
    show V m c main_arg4 (ix1 j) = _
    rw [V_main_arg4]
  have hw1 : ∀ (j : Fin 64) (k : Fin 128), w1Arr m c (ix2 k j) = (m ((c : Thread nD τ).loc main_arg5)) (ix2 j k) := fun j k => by
    show V m c main_v8 (ix2 k j) = _
    rw [V_w1]
    exact w1T_apply _ k j
  have hb1 : ∀ j : Fin 64, b1Arr m c (ix1 j) = (m ((c : Thread nD τ).loc main_arg6)) (ix1 j) := fun j => by
    show V m c main_arg6 (ix1 j) = _
    rw [V_main_arg6]
  have hw2 : ∀ (j : Fin 2) (k : Fin 64), w2Arr m c (ix2 k j) = (m ((c : Thread nD τ).loc main_arg7)) (ix2 j k) := fun j k => by
    show V m c main_v10 (ix2 k j) = _
    rw [V_w2]
    exact w2T_apply _ k j
  have hb2 : ∀ j : Fin 2, b2Arr m c (ix1 j) = (m ((c : Thread nD τ).loc main_arg8)) (ix1 j) := fun j => by
    show V m c main_arg8 (ix1 j) = _
    rw [V_main_arg8]
  simp only [hrows, hwin, hbin, hw1, hb1, hw2, hb2]
  rfl

/-- The kernel's run: it terminates with the result buffer at `result` of the arguments and the arguments unchanged. -/
theorem kernel_run : θ_run defs (onTc (τ := τ) (main (F := Ideal))) ⟨m, fun _ => 0, ρ⟩ (fun r => ∀ c : Dev nD,
      r.2.mem ((c.tc : Thread nD τ).loc main_v13) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (((h c).2 main_v13 (Pipeline.mem_restRefs_of main_v13 (by decide) (by decide))).trans (tail_eq m c)).trans (kernel_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c))),
      (((h c).2 main_arg7 (Pipeline.mem_restRefs_of main_arg7 (by decide) (by decide))).trans (W_main_arg7 m (dats m) c)),
      ((h c).1 6).trans (((dats m 0 c).arrAt_in 6 rfl _).trans ((A_eq m c 6).trans (V_main_arg8 m c)))⟩)
    (run_main m ρ)

/-! ## The reference's side -/

open Cert.ReferenceIdeal.Read in
/-- With no index below zero the reference's gathered rows are the edge rows. -/
theorem ref_rows (x0 : FVec Ideal S100000x64 .f32) (x1 x2 : IVec S1000000 32)
    (h1 : ∀ i, IntOp.cmpi .sge (x1 i) 0#32 = 1#1) (h2 : ∀ i, IntOp.cmpi .sge (x2 i) 0#32 = 1#1) :
    val_main_v14 (F := Ideal) x0 x1 x2 = edgeRows x0 x1 x2 := by
  unfold val_main_v14 val_main_v6 val_main_v13 val_main_v5 val_main_v12
  rw [Cert.IndexDomain.wrapped_src x1 h1, Cert.IndexDomain.wrapped_dst x2 h2]
  rfl

open Cert.ReferenceIdeal.Read in
/-- The reference's result stage is `result` of the arguments, on indices that are not below zero. -/
theorem ref_value (x0 : FVec Ideal S100000x64 .f32) (x1 x2 : IVec S1000000 32) (x3 : FVec Ideal S128x128 .f32) (x4 : FVec Ideal S128 .f32)
    (x5 : FVec Ideal S64x128 .f32) (x6 : FVec Ideal S64 .f32) (x7 : FVec Ideal S2x64 .f32) (x8 : FVec Ideal S2 .f32)
    (h1 : ∀ i, IntOp.cmpi .sge (x1 i) 0#32 = 1#1) (h2 : ∀ i, IntOp.cmpi .sge (x2 i) 0#32 = 1#1) :
    val_main_v28 (F := Ideal) x0 x1 x2 x3 x4 x5 x6 x7 x8 = result x0 x1 x2 x3 x4 x5 x6 x7 x8 := by
  funext i
  obtain ⟨e, o, rfl⟩ : ∃ (e : Fin 1000000) (o : Fin 2), i = ix2 e o := ⟨i 0, i 1, eq_ix2 i⟩
  rw [Cert.ReferenceIdeal.RefNet.result_apply, result_apply, ref_rows x0 x1 x2 h1 h2]

end Cert.Result

end
-- ==== Proof.lean ====
/-
  The edge-scoring network: a Pallas kernel against its jnp reference, over the extended reals.

  Both programs score each of 1000000 edges of a graph with 100000 nodes. Edge e has endpoints `src e` and `dst e`; its
  128 features are row `src e` of `h` beside row `dst e` of `h`; its two scores are a three-layer network of those
  features, 128 → 128 → 64 → 2 with `max · 0` after the first two layers, the weight matrices stored one row per output.

  The reference gathers, multiplies by each weight matrix contracted over its second axis, adds the bias and
  rectifies. The kernel gathers on the host from a narrowed copy of `h`, pads the edge rows with zeros to 62 blocks of
  16384, transposes and narrows the weights, runs the three layers on one block per grid point with block products
  into zero, stores each block's scores transposed, and the host transposes back and cuts the padding off.

  At the ideal values narrowing is the identity and a block product into zero and a host contraction are the same
  finite sum of products taken in the same order, so both results are the same function of the arguments, entry by
  entry: no law of the extended reals beyond the definitions is used, and the finiteness of the float inputs is never
  opened. The one thing the two programs do differently is an index below zero: the reference moves it up by the
  number of rows before it gathers, the kernel does not. The statement is therefore made on the indices' domain:
  no entry of `src` or `dst` is below zero. (An index past the last row is clamped by both gathers alike, so no upper
  bound is needed.)

  The frames of the two kernel programs are the generated ones; the reference's is its generated run with the result
  dropped; the idealized kernel is the kernel's own text read at the ideal values, so the preservation claim is empty.
-/
import proofs.«430106_j35390530519867_3_alg».proof.Defs
import proofs.«430106_j35390530519867_3_alg».proof.Proof.Gen.Kernel
import proofs.«430106_j35390530519867_3_alg».proof.Proof.Gen.Kernel.Frame
import proofs.«430106_j35390530519867_3_alg».proof.Proof.Gen.KernelIdeal
import proofs.«430106_j35390530519867_3_alg».proof.Proof.Gen.KernelIdeal.Frame
import proofs.«430106_j35390530519867_3_alg».proof.Proof.Gen.ReferenceIdeal
import proofs.«430106_j35390530519867_3_alg».proof.Proof.Gen.ReferenceIdeal.Run
import proofs.«430106_j35390530519867_3_alg».proof.Proof.Gen.ReferenceIdeal.Read
import proofs.«430106_j35390530519867_3_alg».proof.Proof.Gen.Pre_finite_inputs
import proofs.«430106_j35390530519867_3_alg».proof.Proof.Result
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, with no edge index below zero, both programs end with every
    edge's scores at the same extended reals: the network of the edge's two feature rows. -/
theorem algebraic : Cert.algebraic_KernelIdeal_ReferenceIdeal := by
  intro m ρ m' ρ' hpre hagree
  refine ⟨fun c => Cert.Result.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Result.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v28_eq]
  obtain ⟨h1, h2⟩ := Cert.IndexDomain.nonneg_of_pre _ _ _ _ _ _ _ _ _ (hpre c)
  exact Cert.Result.ref_value _ _ _ _ _ _ _ _ _ h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
